-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S1x2048 : Shape := ⟨2, ![1, 2048]⟩
abbrev S2048 : Shape := ⟨1, ![2048]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x1024x2048 .f32) (main_arg1 : FVec F S1x2048 .f32) (main_arg2 : FVec F S2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x1024x2048 : Shape := ⟨3, ![4, 1024, 2048]⟩
abbrev S1x2048 : Shape := ⟨2, ![1, 2048]⟩
abbrev S2048 : Shape := ⟨1, ![2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S4096x2048 : Shape := ⟨2, ![4096, 2048]⟩
abbrev S512x2048 : Shape := ⟨2, ![512, 2048]⟩

abbrev nBuf : Space → Nat
  | .hbm => 54
  | .vmem => 6
  | .smem => 0
  | _ => 0

abbrev bufTy : (tb : Table) → Fin (tcTables nBuf tb) → BufTy
  | .hbm, ⟨0, _⟩ => ⟨S4x1024x2048, .f32⟩
  | .hbm, ⟨1, _⟩ => ⟨S1x2048, .f32⟩
  | .hbm, ⟨2, _⟩ => ⟨S2048, .f32⟩
  | .hbm, ⟨3, _⟩ => ⟨S2048, .f32⟩
  | .hbm, ⟨4, _⟩ => ⟨S2048, .i32⟩
  | .hbm, ⟨5, _⟩ => ⟨S2048x1, .i32⟩
  | .hbm, ⟨6, _⟩ => ⟨S2048, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .i32⟩
  | .hbm, ⟨29, _⟩ => ⟨S_, .i1⟩
  | .hbm, ⟨30, _⟩ => ⟨S2048x2048, .i1⟩
  | .hbm, ⟨31, _⟩ => ⟨S2048x2048, .i1⟩
  | .hbm, ⟨32, _⟩ => ⟨S2048x2048, .i1⟩
  | .hbm, ⟨33, _⟩ => ⟨S2048x2048, .i32⟩
  | .hbm, ⟨34, _⟩ => ⟨S2048x2048, .i32⟩
  | .hbm, ⟨35, _⟩ => ⟨S2048x2048, .i32⟩
  | .hbm, ⟨36, _⟩ => ⟨S_, .i32⟩
  | .hbm, ⟨37, _⟩ => ⟨S2048x2048, .i32⟩
  | .hbm, ⟨38, _⟩ => ⟨S2048x2048, .i1⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S2048x2048x1, .i32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .bf16⟩
  | .hbm, ⟨49, _⟩ => ⟨S4096x2048, .f32⟩
  | .hbm, ⟨50, _⟩ => ⟨S4096x2048, .bf16⟩
  | .hbm, ⟨51, _⟩ => ⟨S1x2048, .f32⟩
  | .hbm, ⟨52, _⟩ => ⟨S4096x2048, .f32⟩
  | .hbm, ⟨53, _⟩ => ⟨S4x1024x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_call1_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x2048_S2048 : S1x2048.ShapeCasts S2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bitsLt_bf16_f32 : FTy.bits .bf16 < FTy.bits .f32
  shapeCasts_S4x1024x2048_S4096x2048 : S4x1024x2048.ShapeCasts S4096x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S4x1024x2048 : S4096x2048.ShapeCasts S4x1024x2048
  gather_S2048_S2048x2048x1_S2048x2048_n_0_n_n_0_2_1_wf : GatherDims.WF S2048 S2048x2048x1 S2048x2048 [] [0] [] [0] [] 2 ![1]
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def gather_S2048_S2048x2048x1_S2048x2048_n_0_n_n_0_2_1 : GatherDims S2048 S2048x2048x1 S2048x2048 where
  offsetDims := []
  collapsedSliceDims := [0]
  operandBatchingDims := []
  startIndicesBatchingDims := []
  startIndexMap := [0]
  indexVectorDim := 2
  sliceSizes := ![1]
  wf := gather_S2048_S2048x2048x1_S2048x2048_n_0_n_n_0_2_1_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v22) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x2048 : Shape := ⟨3, ![4, 1024, 2048]⟩
abbrev S1x2048 : Shape := ⟨2, ![1, 2048]⟩
abbrev S2048 : Shape := ⟨1, ![2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S1x2048, .f32⟩
  | .hbm, ⟨2, _⟩ => ⟨S2048, .f32⟩
  | .hbm, ⟨3, _⟩ => ⟨S2048, .f32⟩
  | .hbm, ⟨4, _⟩ => ⟨S2048, .i32⟩
  | .hbm, ⟨5, _⟩ => ⟨S2048x1, .i32⟩
  | .hbm, ⟨6, _⟩ => ⟨S2048, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .i32⟩
  | .hbm, ⟨29, _⟩ => ⟨S_, .i1⟩
  | .hbm, ⟨30, _⟩ => ⟨S2048x2048, .i1⟩
  | .hbm, ⟨31, _⟩ => ⟨S2048x2048, .i1⟩
  | .hbm, ⟨32, _⟩ => ⟨S2048x2048, .i1⟩
  | .hbm, ⟨33, _⟩ => ⟨S2048x2048, .i32⟩
  | .hbm, ⟨34, _⟩ => ⟨S2048x2048, .i32⟩
  | .hbm, ⟨35, _⟩ => ⟨S2048x2048, .i32⟩
  | .hbm, ⟨36, _⟩ => ⟨S_, .i32⟩
  | .hbm, ⟨37, _⟩ => ⟨S2048x2048, .i32⟩
  | .hbm, ⟨38, _⟩ => ⟨S2048x2048, .i1⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S2048x2048x1, .i32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S4x1024x2048, .f32⟩
  | .hbm, ⟨49, _⟩ => ⟨S1x1x2048, .f32⟩
  | .hbm, ⟨50, _⟩ => ⟨S4x1024x2048, .f32⟩
  | .hbm, ⟨51, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_call1_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩

abbrev nD : Nat := 1
abbrev τ : Topo := Topo.v7x

variable {F : FTy → Type} [FloatOps F]

class Facts₀ : Prop where
  shapeCasts_S1x2048_S2048 : S1x2048.ShapeCasts S2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048_S1x1x2048_2 : S2048.BroadcastsInDim S1x1x2048 (![2] : Fin 1 → Fin S1x1x2048.rank)
  bcast_S1x1x2048_S4x1024x2048_0_1_2 : S1x1x2048.BroadcastsInDim S4x1024x2048 (![0, 1, 2] : Fin 3 → Fin S4x1024x2048.rank)
  gather_S2048_S2048x2048x1_S2048x2048_n_0_n_n_0_2_1_wf : GatherDims.WF S2048 S2048x2048x1 S2048x2048 [] [0] [] [0] [] 2 ![1]
  dot_S4x1024x2048_S2048x2048_S4x1024x2048_2_0_01_1_n_n_wf : DotDims.WF S4x1024x2048 S2048x2048 S4x1024x2048 [2] [0] [0, 1] [1] [] []

variable [Facts₀]

def gather_S2048_S2048x2048x1_S2048x2048_n_0_n_n_0_2_1 : GatherDims S2048 S2048x2048x1 S2048x2048 where
  offsetDims := []
  collapsedSliceDims := [0]
  operandBatchingDims := []
  startIndicesBatchingDims := []
  startIndexMap := [0]
  indexVectorDim := 2
  sliceSizes := ![1]
  wf := gather_S2048_S2048x2048x1_S2048x2048_n_0_n_n_0_2_1_wf
def dot_S4x1024x2048_S2048x2048_S4x1024x2048_2_0_01_1_n_n : DotDims S4x1024x2048 S2048x2048 S4x1024x2048 where
  lhsContracting := [2]
  rhsContracting := [0]
  lhsNonContracting := [0, 1]
  rhsNonContracting := [1]
  lhsBatch := []
  rhsBatch := []
  wf := dot_S4x1024x2048_S2048x2048_S4x1024x2048_2_0_01_1_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDot3.lean ====
/-
  A host contraction of a rank-3 left operand `B × E × K` with a matrix `K × N`, the left operand contracted on its
  last axis and the matrix on its first, with no batch axis, read at an entry at the ideal values: entry `(b, e, c)` is
  the sum over the contracted coordinate `k` of `A[b, e, k] · M[k, c]`. Stated for any dimension-numbers record whose
  axis lists are the stated ones (a printed record satisfies each hypothesis by `rfl`).

  Also the two index lemmas it rests on, for any record with no batch axis: a non-contracting axis of the left operand
  reads the output coordinate at its position among the left non-contracting axes, and a non-contracting axis of the
  right operand reads the output coordinate that many places after them.
-/
import Idealize.ShloMosaic.Lib.ValueIdx
import Idealize.ShloMosaic.PureOps.Ideal.Laws

noncomputable section

open scoped BigOperators

namespace Cert.LibDot3

open Idealize.ShloMosaic Idealize.ShloMosaic.ValueIdx

section Axes
variable {sl sr so : Shape} (d : DotDims sl sr so)

/-- With no batch axis, a non-contracting axis `a` of the left operand, standing at position `p` among the left
    non-contracting axes, reads the output's coordinate `p`. -/
theorem lhsIdx_val_nonAt (hb : d.lhsBatch = []) {a : Fin sl.rank} (hmem : a ∈ d.lhsNonContracting) (j : so.Idx)
    (k : d.contr.Idx) {p : Nat} (hp : d.lhsNonContracting.idxOf a = p) (hpr : p < so.rank) :
    (d.lhsIdx j k a).val = (j ⟨p, hpr⟩).val := by
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by rw [hb, List.length_nil, Nat.zero_add]; exact hp)

/-- With no batch axis, a non-contracting axis `a` of the right operand, standing at position `q` among the right
    non-contracting axes, reads the output's coordinate `q` places after the left non-contracting ones. -/
theorem rhsIdx_val_nonAt (hlb : d.lhsBatch = []) (hrb : d.rhsBatch = []) {a : Fin sr.rank}
    (hmem : a ∈ d.rhsNonContracting) (j : so.Idx) (k : d.contr.Idx) {p : Nat}
    (hp : d.lhsNonContracting.length + d.rhsNonContracting.idxOf a = p) (hpr : p < so.rank) :
    (d.rhsIdx j k a).val = (j ⟨p, hpr⟩).val := by
  have hnb : a ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by rw [hlb, List.length_nil, Nat.zero_add]; exact hp)

end Axes

/-- A `B × E × K` operand against a `K × N` matrix: entry `(b, e, c)` of the host contraction is
    `∑ k, A[b, e, k] · M[k, c]`. -/
theorem dotGeneral_3x2_apply {B E K N : Nat} {φ₁ φ₂ : FTy}
    (d : DotDims ⟨3, ![B, E, K]⟩ ⟨2, ![K, N]⟩ ⟨3, ![B, E, N]⟩)
    (hlc : d.lhsContracting = [2]) (hrc : d.rhsContracting = [0]) (hln : d.lhsNonContracting = [0, 1])
    (hrn : d.rhsNonContracting = [1]) (hlb : d.lhsBatch = []) (hrb : d.rhsBatch = [])
    (prec : Option ContractPrecision) (sched : HostSchedule)
    (A : FVec Ideal ⟨3, ![B, E, K]⟩ φ₁) (M : FVec Ideal ⟨2, ![K, N]⟩ φ₂) (b : Fin B) (e : Fin E) (c : Fin N) :
    FloatOps.dotGeneral d prec sched A M (ix3 b e c) = ∑ k : Fin K, A (ix3 b e k) * M (ix2 k c) := by
  have hr : d.contr.rank = 1 := by rw [d.rank_contr, hlc]; rfl
  have hs : d.contr.size ⟨0, by omega⟩ = K := by
    rw [d.size_contr 0 (by rw [hlc]; exact Nat.one_pos)]; simp [hlc]
  rw [Ideal.dotGeneral_apply, ← Equiv.sum_comp (contrEquiv1 d K hr hs).symm]
  refine Finset.sum_congr rfl fun k _ => ?_
  have c2 := contrEquiv1_symm_val d K hr hs k
  have l0 := lhsIdx_val_nonAt d hlb (a := 0) (by rw [hln]; exact List.mem_cons_self) (ix3 b e c)
    ((contrEquiv1 d K hr hs).symm k) (p := 0) (by rw [hln]; rfl) (show 0 < 3 by omega)
  have l1 := lhsIdx_val_nonAt d hlb (a := 1) (by rw [hln]; exact List.mem_cons_of_mem _ List.mem_cons_self) (ix3 b e c)
    ((contrEquiv1 d K hr hs).symm k) (p := 1) (by rw [hln]; rfl) (show 1 < 3 by omega)
  have l2 := (d.lhsIdx_val_of_single hlc (ix3 b e c) ((contrEquiv1 d K hr hs).symm k)).trans c2
  have r0 := (d.rhsIdx_val_of_single hrc (ix3 b e c) ((contrEquiv1 d K hr hs).symm k)).trans c2
  have r1 := rhsIdx_val_nonAt d hlb hrb (a := 1) (by rw [hrn]; exact List.mem_cons_self) (ix3 b e c)
    ((contrEquiv1 d K hr hs).symm k) (p := 2) (by rw [hln, hrn]; rfl) (show 2 < 3 by omega)
  have hl : d.lhsIdx (ix3 b e c) ((contrEquiv1 d K hr hs).symm k) = ix3 b e k := by
    funext ax; apply Fin.ext
    match ax with
    | ⟨0, _⟩ => exact l0
    | ⟨1, _⟩ => exact l1
    | ⟨2, _⟩ => exact l2
  have hrr : d.rhsIdx (ix3 b e c) ((contrEquiv1 d K hr hs).symm k) = ix2 k c := by
    funext ax; apply Fin.ext
    match ax with
    | ⟨0, _⟩ => exact r0
    | ⟨1, _⟩ => exact r1
  rw [hl, hrr]

end Cert.LibDot3

end
-- ==== Proof.Spec.lean ====
/-
  The specification: a linear map along the last axis with a bias,
      out[b, e, t] = ∑ s, x[b, e, s] · W[s, t] + bias[t]        (x : 4 × 1024 × 2048, W : 2048 × 2048, bias : 2048),
  on the extended reals, for ANY matrix `W` (which matrix the two programs build is never opened here), and the same
  over the rows flattened to 4096 × 2048 (`rows`). Beside it, the two closing terms read at an entry:
  the host contraction plus the bias broadcast along the last axis IS `out`; and a 512-row block's matrix product
  into the zero accumulator plus the bias row broadcast down the rows is, entry by entry, that block's sums.
  No law of the extended reals beyond reading a sum is used: both sides add the same products over the same index set.
-/
import Idealize.ShloMosaic.Lib.ValueIdx
import Idealize.ShloMosaic.Lib.Pipeline.Value
import Idealize.ShloMosaic.PureOps.Ideal.Laws
import proofs.«134470_j8400956031055_1_alg».proof.Proof.LibDot
import proofs.«134470_j8400956031055_1_alg».proof.Proof.LibDot3

noncomputable section

open scoped BigOperators

namespace Cert.ToeplitzLinear

open Idealize.ShloMosaic Idealize.ShloMosaic.ValueIdx

abbrev X3 : Shape := ⟨3, ![4, 1024, 2048]⟩
abbrev X2 : Shape := ⟨2, ![4096, 2048]⟩
abbrev Mat : Shape := ⟨2, ![2048, 2048]⟩
abbrev B1 : Shape := ⟨1, ![2048]⟩
abbrev B2 : Shape := ⟨2, ![1, 2048]⟩
abbrev B3 : Shape := ⟨3, ![1, 1, 2048]⟩
abbrev Blk : Shape := ⟨2, ![512, 2048]⟩

/-- `out[b, e, t] = ∑ s, x[b, e, s] · W[s, t] + bias[t]`. -/
def out (x : X3.Idx → EReal) (W : Mat.Idx → EReal) (bias : B1.Idx → EReal) : X3.Idx → EReal :=
  fun i => (∑ k : Fin 2048, x (ix3 (i 0) (i 1) k) * W (ix2 k (i 2))) + bias (ix1 (i 2))

/-- The same over flattened rows: `rows[r, t] = ∑ s, x2[r, s] · W[s, t] + bias2[0, t]`. -/
def rows (x2 : X2.Idx → EReal) (W : Mat.Idx → EReal) (bias2 : B2.Idx → EReal) : X2.Idx → EReal :=
  fun i => (∑ k : Fin 2048, x2 (ix2 (i 0) k) * W (ix2 k (i 1))) + bias2 (ix2 0 (i 1))

/-- The host contraction of `x` with `W` plus the bias broadcast along the last axis is `out`. -/
theorem host_eq_out (d : DotDims X3 Mat X3)
    (hlc : d.lhsContracting = [2]) (hrc : d.rhsContracting = [0]) (hln : d.lhsNonContracting = [0, 1])
    (hrn : d.rhsNonContracting = [1]) (hlb : d.lhsBatch = []) (hrb : d.rhsBatch = [])
    (h1 : B1.BroadcastsInDim B3 (![2] : Fin 1 → Fin B3.rank))
    (h2 : B3.BroadcastsInDim X3 (![0, 1, 2] : Fin 3 → Fin X3.rank))
    (x : FVec Ideal X3 .f32) (W : FVec Ideal Mat .f32) (bias : FVec Ideal B1 .f32) :
    addf (Host.dotGeneral d none x W) (broadcastInDim X3 ![0, 1, 2] h2 (broadcastInDim B3 ![2] h1 bias)) = out x W bias := by
  funext i
  obtain ⟨b, e, c, rfl⟩ : ∃ (b : Fin 4) (e : Fin 1024) (c : Fin 2048), i = ix3 b e c := ⟨i 0, i 1, i 2, eq_ix3 i⟩
  rw [addf_apply]
  show FloatOps.dotGeneral d none .single x W (ix3 b e c) + _ = _
  rw [Cert.LibDot3.dotGeneral_3x2_apply d hlc hrc hln hrn hlb hrb]
  rw [broadcastInDim_apply ![0, 1, 2] h2 _ (ix3 b e c) (ix3 (0 : Fin 1) (0 : Fin 1) c)
      (fun a => by match a with | ⟨0, _⟩ => rfl | ⟨1, _⟩ => rfl | ⟨2, _⟩ => rfl),
    broadcastInDim_apply ![2] h1 bias (ix3 (0 : Fin 1) (0 : Fin 1) c) (ix1 c)
      (fun a => by match a with | ⟨0, _⟩ => rfl)]
  rfl

/-- A 512-row block times `W` into the zero accumulator, plus the bias row broadcast down the rows, at entry
    `(p, q)`: the block's row `p` against column `q` of `W`, plus the bias at `q`. -/
theorem block_apply (d : DotDims Blk Mat Blk)
    (hlc : d.lhsContracting = [1]) (hrc : d.rhsContracting = [0]) (hln : d.lhsNonContracting = [0])
    (hrn : d.rhsNonContracting = [1]) (hlb : d.lhsBatch = []) (hrb : d.rhsBatch = [])
    (hc0 : Blk.ShapeCasts Blk) (hc1 : Mat.ShapeCasts Mat) (hc2 : B2.ShapeCasts B2) (hbc : B2.Broadcasts Blk)
    (x0 : FVec Ideal Blk .bf16) (x1 : FVec Ideal Mat .bf16) (x2 : FVec Ideal B2 .f32) (p : Fin 512) (q : Fin 2048) :
    addf (matmul d none (shapeCast Blk x0 hc0) (shapeCast Mat x1 hc1) (constant Blk .f32 0x00000000#32))
        (broadcastTo Blk (shapeCast B2 x2 hc2) hbc) (ix2 p q)
      = (∑ k : Fin 2048, x0 (ix2 p k) * x1 (ix2 k q)) + x2 (ix2 0 q) := by
  rw [shapeCast_self, shapeCast_self, shapeCast_self, addf_apply,
    Cert.LibDot.matmul_10_zero_apply d hlc hrc hln hrn hlb hrb,
    broadcastTo_apply x2 hbc (ix2 p q) (ix2 (0 : Fin 1) q)
      (fun a => by match a with | ⟨0, _⟩ => rfl | ⟨1, _⟩ => rfl)]

/-- Flattening the rows and back: `rows` of `x` flattened to 4096 × 2048 and of the bias as a row, read back at
    4 × 1024 × 2048, is `out`: row `1024 · b + e` of the flattened array is row `(b, e)` of `x`. A change of float
    format is the identity on the extended reals. -/
theorem rows_reshaped (x : FVec Ideal X3 .f32) (W : FVec Ideal Mat .f32) (bias : FVec Ideal B1 .f32)
    (h1 : X3.ShapeCasts X2) (h2 : B1.ShapeCasts B2) (h3 : X2.ShapeCasts X3) (hlt : FTy.bf16.bits < FTy.f32.bits) :
    shapeCast X3 (rows (truncf .bf16 (shapeCast X2 x h1) hlt) (truncf .bf16 W hlt) (shapeCast B2 bias h2)) h3
      = out x W bias := by
  funext i
  obtain ⟨b, e, c, rfl⟩ : ∃ (b : Fin 4) (e : Fin 1024) (c : Fin 2048), i = ix3 b e c := ⟨i 0, i 1, i 2, eq_ix3 i⟩
  have hr : 1024 * b.val + e.val < 4096 := by have := b.isLt; have := e.isLt; omega
  rw [shapeCast_apply _ h3 (ix3 b e c) (ix2 (⟨1024 * b.val + e.val, hr⟩ : Fin 4096) c) (by
    rw [Shape.rowMajor_val_two, Shape.rowMajor_val_three]
    show (1024 * b.val + e.val) * 2048 + c.val = (b.val * 1024 + e.val) * 2048 + c.val
    omega)]
  show (∑ k : Fin 2048, shapeCast X2 x h1 (ix2 (⟨1024 * b.val + e.val, hr⟩ : Fin 4096) k) * W (ix2 k c))
      + shapeCast B2 bias h2 (ix2 (0 : Fin 1) c)
    = (∑ k : Fin 2048, x (ix3 b e k) * W (ix2 k c)) + bias (ix1 c)
  rw [shapeCast_apply bias h2 (ix2 (0 : Fin 1) c) (ix1 c) (by
    rw [Shape.rowMajor_val_one, Shape.rowMajor_val_two]
    show c.val = 0 * 2048 + c.val
    omega)]
  refine congrArg (· + bias (ix1 c)) (Finset.sum_congr rfl fun k _ => ?_)
  rw [shapeCast_apply x h1 (ix2 (⟨1024 * b.val + e.val, hr⟩ : Fin 4096) k) (ix3 b e k) (by
    rw [Shape.rowMajor_val_three, Shape.rowMajor_val_two]
    show (b.val * 1024 + e.val) * 2048 + k.val = (1024 * b.val + e.val) * 2048 + k.val
    omega)]

end Cert.ToeplitzLinear

end
-- ==== Proof.RefRun.lean ====
/-
  The reference program read back. Its @main is a straight line of 49 host operations once the three outlined
  functions (an integer remainder, and two selects) are written at their call sites over the calls' own buffers:
  the first 45 build the square matrix `W` from the weight row (index arithmetic, a gather, a select against zero),
  the last four contract `x` with `W` along the last axis and add the bias broadcast along that axis.
  Every weakly fair execution terminates with each buffer at the operations' fold over the launch contents; read at
  the result buffer that fold is the contraction of `x` with whatever the 45 operations left in `W`'s buffer
  (`weights`, kept as that fold: what matrix it is is never needed), plus the bias.
-/
import proofs.«134470_j8400956031055_1_alg».proof.Proof.Gen.ReferenceIdeal
import Idealize.ShloMosaic.Lib.StableHlo.Run
import Idealize.ShloMosaic.Lib.Pipeline.Frame

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The 45 operations that build `W` (the remainder's 21 and the last select's 2 at their call sites). -/
abbrev opsW : List (HloOp τ sig (Elt F)) :=
  [ StableHlo.reshape main_arg1 main_v0 rfl shapeCasts_S1x2048_S2048,
    StableHlo.nullary main_v1 (iotaInDim S2048 32 0),
    StableHlo.unary main_v1 main_v2 (broadcastInDim S2048x1 ![0] bcast_S2048_S2048x1_0 : (⟨S2048, .i32⟩ : BufTy).Contents (Elt F) → (⟨S2048x1, .i32⟩ : BufTy).Contents (Elt F)),
    StableHlo.nullary main_v3 (iotaInDim S2048 32 0),
    StableHlo.unary main_v3 main_v4 (broadcastInDim S1x2048 ![1] bcast_S2048_S1x2048_1 : (⟨S2048, .i32⟩ : BufTy).Contents (Elt F) → (⟨S1x2048, .i32⟩ : BufTy).Contents (Elt F)),
    StableHlo.unary main_v4 main_v5 (broadcastInDim S2048x2048 ![0, 1] bcast_S1x2048_S2048x2048_0_1 : (⟨S1x2048, .i32⟩ : BufTy).Contents (Elt F) → (⟨S2048x2048, .i32⟩ : BufTy).Contents (Elt F)),
    StableHlo.unary main_v2 main_v6 (broadcastInDim S2048x2048 ![0, 1] bcast_S2048x1_S2048x2048_0_1 : (⟨S2048x1, .i32⟩ : BufTy).Contents (Elt F) → (⟨S2048x2048, .i32⟩ : BufTy).Contents (Elt F)),
    StableHlo.binary main_v5 main_v6 main_v7 (cmpi .sge : (⟨S2048x2048, .i32⟩ : BufTy).Contents (Elt F) → (⟨S2048x2048, .i32⟩ : BufTy).Contents (Elt F) → (⟨S2048x2048, .i1⟩ : BufTy).Contents (Elt F)),
    StableHlo.unary main_v4 main_v8 (broadcastInDim S2048x2048 ![0, 1] bcast_S1x2048_S2048x2048_0_1 : (⟨S1x2048, .i32⟩ : BufTy).Contents (Elt F) → (⟨S2048x2048, .i32⟩ : BufTy).Contents (Elt F)),
    StableHlo.unary main_v2 main_v9 (broadcastInDim S2048x2048 ![0, 1] bcast_S2048x1_S2048x2048_0_1 : (⟨S2048x1, .i32⟩ : BufTy).Contents (Elt F) → (⟨S2048x2048, .i32⟩ : BufTy).Contents (Elt F)),
    StableHlo.binary main_v8 main_v9 main_v10 (subi : (⟨S2048x2048, .i32⟩ : BufTy).Contents (Elt F) → (⟨S2048x2048, .i32⟩ : BufTy).Contents (Elt F) → (⟨S2048x2048, .i32⟩ : BufTy).Contents (Elt F)),
    StableHlo.nullary main_c (constantI S_ 32 2048#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S2048x2048 ![] bcast_S_S2048x2048),
    StableHlo.TRef.binary (.of main_v10 : StableHlo.TRef sig ⟨S2048x2048, .i32⟩) main_call0.v3 main_call0.v4 Host.remsi,
    StableHlo.TRef.nullary main_call0.c_1 (constantI S_ 32 0#32),
    StableHlo.TRef.unary main_call0.c_1 main_call0.v5 (broadcastInDim S2048x2048 ![] bcast_S_S2048x2048),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S2048x2048 ![] bcast_S_S2048x2048),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S2048x2048 ![] bcast_S_S2048x2048),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S2048x2048 ![] bcast_S_S2048x2048),
    StableHlo.TRef.binary main_call0.v4 main_call0.v13 main_call0.v14 addi,
    StableHlo.TRef.ternary main_call0.v12 main_call0.v14 main_call0.v4 main_call0.v15 select,
    StableHlo.nullary main_c_0 (constantI S_ 32 0#32),
    StableHlo.unary main_c_0 main_v12 (broadcastInDim S2048x2048 ![] bcast_S_S2048x2048 : (⟨S_, .i32⟩ : BufTy).Contents (Elt F) → (⟨S2048x2048, .i32⟩ : BufTy).Contents (Elt F)),
    StableHlo.binary main_v11 main_v12 main_v13 (cmpi .slt : (⟨S2048x2048, .i32⟩ : BufTy).Contents (Elt F) → (⟨S2048x2048, .i32⟩ : BufTy).Contents (Elt F) → (⟨S2048x2048, .i1⟩ : BufTy).Contents (Elt F)),
    StableHlo.nullary main_c_1 (constantI S_ 32 2048#32),
    StableHlo.unary main_c_1 main_v14 (broadcastInDim S2048x2048 ![] bcast_S_S2048x2048 : (⟨S_, .i32⟩ : BufTy).Contents (Elt F) → (⟨S2048x2048, .i32⟩ : BufTy).Contents (Elt F)),
    StableHlo.binary main_v11 main_v14 main_v15 (addi : (⟨S2048x2048, .i32⟩ : BufTy).Contents (Elt F) → (⟨S2048x2048, .i32⟩ : BufTy).Contents (Elt F) → (⟨S2048x2048, .i32⟩ : BufTy).Contents (Elt F)),
    StableHlo.ternary main_v13 main_v15 main_v11 main_v16 (select : (⟨S2048x2048, .i1⟩ : BufTy).Contents (Elt F) → (⟨S2048x2048, .i32⟩ : BufTy).Contents (Elt F) → (⟨S2048x2048, .i32⟩ : BufTy).Contents (Elt F) → (⟨S2048x2048, .i32⟩ : BufTy).Contents (Elt F)),
    StableHlo.unary main_v16 main_v17 (broadcastInDim S2048x2048x1 ![0, 1] bcast_S2048x2048_S2048x2048x1_0_1 : (⟨S2048x2048, .i32⟩ : BufTy).Contents (Elt F) → (⟨S2048x2048x1, .i32⟩ : BufTy).Contents (Elt F)),
    StableHlo.binary main_v0 main_v17 main_v18 ((fun x i => Host.gather gather_S2048_S2048x2048x1_S2048x2048_n_0_n_n_0_2_1 x i) : (⟨S2048, .f32⟩ : BufTy).Contents (Elt F) → (⟨S2048x2048x1, .i32⟩ : BufTy).Contents (Elt F) → (⟨S2048x2048, .f32⟩ : BufTy).Contents (Elt F)),
    StableHlo.nullary main_cst (constant S_ .f32 0x00000000#32),
    StableHlo.TRef.unary (.of main_cst : StableHlo.TRef sig ⟨S_, .f32⟩) main_call1.v0 (broadcastInDim S2048x2048 ![] bcast_S_S2048x2048),
    StableHlo.TRef.ternary (.of main_v7 : StableHlo.TRef sig ⟨S2048x2048, .i1⟩) (.of main_v18 : StableHlo.TRef sig ⟨S2048x2048, .f32⟩) main_call1.v0 main_call1.v1 select ]

/-- The four closing operations: the contraction, the bias broadcast in two steps, the sum. -/
abbrev opsOut : List (HloOp τ sig (Elt F)) :=
  [ StableHlo.binary main_arg0 main_v19 main_v20 ((fun l r => Host.dotGeneral dot_S4x1024x2048_S2048x2048_S4x1024x2048_2_0_01_1_n_n none l r) : (⟨S4x1024x2048, .f32⟩ : BufTy).Contents (Elt F) → (⟨S2048x2048, .f32⟩ : BufTy).Contents (Elt F) → (⟨S4x1024x2048, .f32⟩ : BufTy).Contents (Elt F)),
    StableHlo.unary main_arg2 main_v21 (broadcastInDim S1x1x2048 ![2] bcast_S2048_S1x1x2048_2 : (⟨S2048, .f32⟩ : BufTy).Contents (Elt F) → (⟨S1x1x2048, .f32⟩ : BufTy).Contents (Elt F)),
    StableHlo.unary main_v21 main_v22 (broadcastInDim S4x1024x2048 ![0, 1, 2] bcast_S1x1x2048_S4x1024x2048_0_1_2 : (⟨S1x1x2048, .f32⟩ : BufTy).Contents (Elt F) → (⟨S4x1024x2048, .f32⟩ : BufTy).Contents (Elt F)),
    StableHlo.binary main_v20 main_v22 main_v23 (addf : (⟨S4x1024x2048, .f32⟩ : BufTy).Contents (Elt F) → (⟨S4x1024x2048, .f32⟩ : BufTy).Contents (Elt F) → (⟨S4x1024x2048, .f32⟩ : BufTy).Contents (Elt F)) ]

-- forty-nine binds re-associated
set_option maxRecDepth 2048 in
/-- @main is that straight line: the functions' bodies unfolded at their calls, both sides one chain of steps. -/
theorem main_eq (c : Dev nD) : main (F := F) c = seq (opsW ++ opsOut) := by
  rw [seq_append]
  simp only [main, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsW_sub : (opsW : List (HloOp τ sig (Elt F))).Forall fun op => op.bufs ⊆ tcRefs τ sig :=
  ⟨reshape_bufs_sub .., nullary_bufs_sub .., unary_bufs_sub .., nullary_bufs_sub .., unary_bufs_sub .., unary_bufs_sub .., unary_bufs_sub .., binary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., ternary_bufs_sub ..⟩
theorem opsOut_sub : (opsOut : List (HloOp τ sig (Elt F))).Forall fun op => op.bufs ⊆ tcRefs τ sig :=
  ⟨binary_bufs_sub .., unary_bufs_sub .., unary_bufs_sub .., binary_bufs_sub ..⟩
theorem ops_sub : (opsW ++ opsOut : List (HloOp τ sig (Elt F))).Forall fun op => op.bufs ⊆ tcRefs τ sig :=
  List.forall_iff_forall_mem.mpr fun op h => (List.mem_append.mp h).elim
    (List.forall_iff_forall_mem.mp opsW_sub op) (List.forall_iff_forall_mem.mp opsOut_sub op)

theorem opsW_fresh : ∀ op ∈ (opsW : List (HloOp τ sig (Elt F))), op.fresh = ∅ := by
  intro _ h; (repeat (cases h with | head => rfl | tail _ h => ?_)); exact nomatch h
theorem opsOut_fresh : ∀ op ∈ (opsOut : List (HloOp τ sig (Elt F))), op.fresh = ∅ := by
  intro _ h; (repeat (cases h with | head => rfl | tail _ h => ?_)); exact nomatch h

/-- Every weakly fair execution of @main terminates with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsW ++ opsOut) (launchContents m c) (b : DevRef τ sig) :=
  run_seq scopedRefs_eq scopedSems_eq defs main (fun _ => opsW ++ opsOut) main_eq (fun _ => ops_sub) m ρ
    (fun _ op h => (List.mem_append.mp h).elim (opsW_fresh op) (opsOut_fresh op))

/-- What the 45 operations leave in `W`'s buffer, from contents `V`. -/
def weights (V : Valuation τ sig (Elt F)) := after opsW V (main_v19 : DevRef τ sig)

/-- The 45 operations write none of the three arguments. -/
theorem opsW_arg0 (V : Valuation τ sig (Elt F)) : after opsW V (main_arg0 : DevRef τ sig) = V (main_arg0 : DevRef τ sig) := by
  after_results_simp
theorem opsW_arg1 (V : Valuation τ sig (Elt F)) : after opsW V (main_arg1 : DevRef τ sig) = V (main_arg1 : DevRef τ sig) := by
  after_results_simp
theorem opsW_arg2 (V : Valuation τ sig (Elt F)) : after opsW V (main_arg2 : DevRef τ sig) = V (main_arg2 : DevRef τ sig) := by
  after_results_simp

/-- The result buffer after all 49: `x` contracted with what is in `W`'s buffer, plus the bias along the last axis. -/
theorem out_eq (V : Valuation τ sig (Elt F)) :
    after (opsW ++ opsOut) V (main_v23 : DevRef τ sig)
      = addf (Host.dotGeneral dot_S4x1024x2048_S2048x2048_S4x1024x2048_2_0_01_1_n_n none (V (main_arg0 : DevRef τ sig)) (weights V))
          (broadcastInDim S4x1024x2048 ![0, 1, 2] bcast_S1x1x2048_S4x1024x2048_0_1_2
            (broadcastInDim S1x1x2048 ![2] bcast_S2048_S1x1x2048_2 (V (main_arg2 : DevRef τ sig)))) := by
  rw [after_append, ← opsW_arg0 V, ← opsW_arg2 V]
  unfold weights
  generalize after opsW V = V'
  after_results

theorem all_arg0 (V : Valuation τ sig (Elt F)) : after (opsW ++ opsOut) V (main_arg0 : DevRef τ sig) = V (main_arg0 : DevRef τ sig) := by
  rw [after_append, ← opsW_arg0 V]; generalize after opsW V = V'; after_results
theorem all_arg1 (V : Valuation τ sig (Elt F)) : after (opsW ++ opsOut) V (main_arg1 : DevRef τ sig) = V (main_arg1 : DevRef τ sig) := by
  rw [after_append, ← opsW_arg1 V]; generalize after opsW V = V'; after_results
theorem all_arg2 (V : Valuation τ sig (Elt F)) : after (opsW ++ opsOut) V (main_arg2 : DevRef τ sig) = V (main_arg2 : DevRef τ sig) := by
  rw [after_append, ← opsW_arg2 V]; generalize after opsW V = V'; after_results

/-- On every device, from any memory with zero counters: every weakly fair execution of @main terminates with the
    result at the contraction of `x` with the built matrix plus the bias, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = addf (Host.dotGeneral dot_S4x1024x2048_S2048x2048_S4x1024x2048_2_0_01_1_n_n none (m ((c.tc : Thread nD τ).loc main_arg0)) (weights (launchContents m c)))
            (broadcastInDim S4x1024x2048 ![0, 1, 2] bcast_S1x1x2048_S4x1024x2048_0_1_2
              (broadcastInDim S1x1x2048 ![2] bcast_S2048_S1x1x2048_2 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v23).trans (out_eq (launchContents m c)),
      (h c main_arg0).trans (all_arg0 (launchContents m c)),
      (h c main_arg1).trans (all_arg1 (launchContents m c)),
      (h c main_arg2).trans (all_arg2 (launchContents m c))⟩)
    (run_fold m ρ)

end Cert.ReferenceIdeal.Host

end
-- ==== Proof.KernelHost.lean ====
/-
  The kernel program's host lines before the region, read back. The first 45 build the square matrix `W` from the
  weight row by the same operations the reference uses (what they leave in `W`'s buffer is kept as their fold,
  `weights`); the last four hand the region its operands: `W` with its format changed, `x` flattened to
  4096 × 2048 with its format changed, and the bias as a 1 × 2048 row.
-/
import proofs.«134470_j8400956031055_1_alg».proof.Proof.Gen.KernelIdeal.Frame
import Idealize.ShloMosaic.Lib.StableHlo.Run
import Idealize.ShloMosaic.Lib.Pipeline.Frame

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The 45 operations that build `W`: @main's first twelve, the remainder's 21, ten more of @main, the select's 2. -/
abbrev opsW : List (HloOp τ sig (Elt F)) := hostOps0 ++ hostOps0_1 ++ hostOps0_2 ++ hostOps0_3

/-- What they leave in `W`'s buffer, from contents `V`. -/
def weights (V : Valuation τ sig (Elt F)) := after opsW V (main_v19 : DevRef τ sig)

/-- The host lines before the region are those 45 and then four more. -/
theorem prefix_eq : List.flatten [hostOps0, hostOps0_1, hostOps0_2, hostOps0_3, hostOps0_4]
    = (opsW ++ hostOps0_4 : List (HloOp τ sig (Elt F))) := by
  simp only [opsW, List.flatten_cons, List.flatten_nil, List.append_nil, List.append_assoc]

/-- The 45 operations write none of the three arguments. -/
theorem opsW_arg0 (V : Valuation τ sig (Elt F)) : after opsW V (main_arg0 : DevRef τ sig) = V (main_arg0 : DevRef τ sig) := by
  simp only [opsW, after_append]; after_results_simp
theorem opsW_arg2 (V : Valuation τ sig (Elt F)) : after opsW V (main_arg2 : DevRef τ sig) = V (main_arg2 : DevRef τ sig) := by
  simp only [opsW, after_append]; after_results_simp

/-- `W`'s operand array: what the 45 operations left, its format changed. -/
theorem pre_v20 (M : Valuation τ sig (Elt F)) :
    after hostOps0_4 (after opsW M) (main_v20 : DevRef τ sig) = truncf .bf16 (weights M) bitsLt_bf16_f32 := by
  unfold weights
  generalize after opsW M = V'
  after_results

/-- `x`'s operand array: `x` flattened to 4096 × 2048, its format changed. -/
theorem pre_v22 (M : Valuation τ sig (Elt F)) :
    after hostOps0_4 (after opsW M) (main_v22 : DevRef τ sig)
      = truncf .bf16 (shapeCast S4096x2048 (M (main_arg0 : DevRef τ sig)) shapeCasts_S4x1024x2048_S4096x2048) bitsLt_bf16_f32 := by
  rw [← opsW_arg0 M]
  generalize after opsW M = V'
  after_results
  rfl

/-- The bias operand array: the bias as a 1 × 2048 row. -/
theorem pre_v23 (M : Valuation τ sig (Elt F)) :
    after hostOps0_4 (after opsW M) (main_v23 : DevRef τ sig)
      = shapeCast S1x2048 (M (main_arg2 : DevRef τ sig)) shapeCasts_S2048_S1x2048 := by
  rw [← opsW_arg2 M]
  generalize after opsW M = V'
  after_results
  rfl

variable (m : (ℓ : Loc nD τ sig) → Buf (Elt F) ℓ)

/-- The contents the region finds are the four operations' fold over the 45's. -/
theorem V_eq (c : Dev nD) (b : Ref sig .tc) :
    V m c b = after hostOps0_4 (after opsW (fun b => m (c, b))) (b : DevRef τ sig) := by
  show after (List.flatten [hostOps0, hostOps0_1, hostOps0_2, hostOps0_3, hostOps0_4]) (fun b => m (c, b)) (Proc.devRef .tc b) = _
  rw [prefix_eq, after_append]

theorem V_v20 (c : Dev nD) : V m c main_v20 = truncf .bf16 (weights (fun b => m (c, b))) bitsLt_bf16_f32 :=
  (V_eq m c main_v20).trans (pre_v20 _)
theorem V_v22 (c : Dev nD) : V m c main_v22
    = truncf .bf16 (shapeCast S4096x2048 (m ((c : Thread nD τ).loc main_arg0)) shapeCasts_S4x1024x2048_S4096x2048) bitsLt_bf16_f32 :=
  (V_eq m c main_v22).trans (pre_v22 _)
theorem V_v23 (c : Dev nD) : V m c main_v23 = shapeCast S1x2048 (m ((c : Thread nD τ).loc main_arg2)) shapeCasts_S2048_S1x2048 :=
  (V_eq m c main_v23).trans (pre_v23 _)

end Cert.KernelIdeal.Host

end
-- ==== Proof.WeightsAgree.lean ====
/-
  Both programs build the square matrix `W` from the weight row by the same 45 host operations (two index grids,
  their difference reduced modulo 2048, a gather of the weight row at those indices, a select against zero above the
  diagonal test), each program over its own buffers. So from contents that agree on the weight row the two
  programs leave the same array in `W`'s buffer: each fold read back operation by operation is one and the same term
  of the weight row. Which matrix that is plays no part.
-/
import proofs.«134470_j8400956031055_1_alg».proof.Proof.RefRun
import proofs.«134470_j8400956031055_1_alg».proof.Proof.KernelHost

noncomputable section

namespace Cert.WeightsAgree

open Idealize.ShloMosaic Idealize.ShloMosaic.TcCoe Idealize.SL.Sem Idealize.ShloMosaic.StableHlo

variable {F : FTy → Type} [FloatOps F]

set_option maxRecDepth 4096 in
/-- From contents agreeing on the weight row, the kernel program's and the reference's 45 operations leave the same `W`. -/
theorem weights_eq (MK : Valuation Cert.KernelIdeal.τ Cert.KernelIdeal.sig (Elt F))
    (MR : Valuation Cert.ReferenceIdeal.τ Cert.ReferenceIdeal.sig (Elt F))
    (h : MR (Cert.ReferenceIdeal.main_arg1 : DevRef Cert.ReferenceIdeal.τ Cert.ReferenceIdeal.sig)
      = MK (Cert.KernelIdeal.main_arg1 : DevRef Cert.KernelIdeal.τ Cert.KernelIdeal.sig)) :
    Cert.ReferenceIdeal.Host.weights MR = Cert.KernelIdeal.Host.weights MK := by
  unfold Cert.KernelIdeal.Host.weights Cert.ReferenceIdeal.Host.weights
  simp only [Cert.KernelIdeal.Host.opsW, after_append]
  after_results_simp
  rw [h]
  rfl

end Cert.WeightsAgree

end
-- ==== Proof.KernelValue.lean ====
/-
  What the kernel program leaves in its result. The region runs eight grid points; point `t` takes rows
  `512 t … 512 t + 511` of the flattened `x`, all of `W` and the bias row, and writes back the block's matrix product
  with `W` plus the bias row on every row. Block `t` of `rows` of the three operand arrays is exactly that, and the
  eight blocks tile the 4096 × 2048 result, so the result array after the region is `rows` of the operand arrays; the
  one host line after the region reads it back at 4 × 1024 × 2048, which is `out` of `x`, the built matrix and the bias.
-/
import proofs.«134470_j8400956031055_1_alg».proof.Proof.Gen.KernelIdeal.Frame
import proofs.«134470_j8400956031055_1_alg».proof.Proof.Spec
import proofs.«134470_j8400956031055_1_alg».proof.Proof.KernelHost
import Idealize.ShloMosaic.Lib.Pipeline.Value

set_option maxRecDepth 16384

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx Cert.ToeplitzLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three operand arrays as the region finds them, at their literal types. -/
abbrev xs (c : Dev nD) : X2.Idx → EReal := V m c main_v22
abbrev ws (c : Dev nD) : Mat.Idx → EReal := V m c main_v20
abbrev bs (c : Dev nD) : B2.Idx → EReal := V m c main_v23

/-- The body's stored value at entry `(p, q)`: row `p` of the `x` block against column `q` of `W`, plus the bias at `q`. -/
theorem pay_apply (x0 : Vec Ideal S512x2048 .bf16) (x1 : Vec Ideal S2048x2048 .bf16) (x2 : Vec Ideal S1x2048 .f32)
    (p : Fin 512) (q : Fin 2048) :
    k0_pay1 x0 x1 x2 (ix2 p q) = (∑ k : Fin 2048, x0 (ix2 p k) * x1 (ix2 k q)) + x2 (ix2 0 q) := by
  unfold k0_pay1
  exact block_apply dot_S512x2048_S2048x2048_S512x2048_1_0_0_1_n_n rfl rfl rfl rfl rfl rfl _ _ _ _ x0 x1 x2 p q

/-- The printed index maps over the grid: `x`'s window and the result's move down one block of rows per point; `W`'s and
    the bias's stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Each input window's block at a point, read at an entry, is its array read where the block sits. -/
theorem xblk_apply (c : Dev nD) (t : Fin cfg0.N) (y : S512x2048.Idx) :
    iblk m c 0 t y = xs m c (((cfg0.win 0).blk t).view.emb y) := rfl
theorem wblk_apply (c : Dev nD) (t : Fin cfg0.N) (y : S2048x2048.Idx) :
    iblk m c 1 t y = ws m c (((cfg0.win 1).blk t).view.emb y) := rfl
theorem bblk_apply (c : Dev nD) (t : Fin cfg0.N) (y : S1x2048.Idx) :
    iblk m c 2 t y = bs m c (((cfg0.win 2).blk t).view.emb y) := rfl

/-- WHAT POINT `t` WRITES BACK is block `t` of `rows` of the operand arrays. -/
theorem flushed_eq (c : Dev nD) (t : Fin cfg0.N) :
    (dats m 0 c).flushed 3 t = ((cfg0.win 3).blk t).view.read (Elt Ideal) (rows (xs m c) (ws m c) (bs m c)) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  obtain ⟨e00, e01, e10, e11, e20, e21, e30, e31⟩ := idx_facts t
  have ht : t.val < 8 := Nat.lt_of_lt_of_eq t.isLt N_0
  funext j
  obtain ⟨p, q, rfl⟩ : ∃ (p : Fin 512) (q : Fin 2048), j = ix2 p q := ⟨j 0, j 1, eq_ix2 j⟩
  have hr : 512 * t.val + p.val < 4096 := by have := p.isLt; omega
  have hE3 : ((cfg0.win 3).blk t).view.emb (ix2 p q) = (ix2 (⟨512 * t.val + p.val, hr⟩ : Fin 4096) q : X2.Idx) := by
    funext a; apply Fin.ext
    match a with
    | ⟨0, _⟩ => show win0_3.index t (0 : Fin 2) * 512 + 1 * p.val = 512 * t.val + p.val; omega
    | ⟨1, _⟩ => show win0_3.index t (1 : Fin 2) * 2048 + 1 * q.val = q.val; omega
  have hE0 : ∀ k : Fin 2048, ((cfg0.win 0).blk t).view.emb (ix2 p k) = (ix2 (⟨512 * t.val + p.val, hr⟩ : Fin 4096) k : X2.Idx) := by
    intro k; funext a; apply Fin.ext
    match a with
    | ⟨0, _⟩ => show win0_0.index t (0 : Fin 2) * 512 + 1 * p.val = 512 * t.val + p.val; omega
    | ⟨1, _⟩ => show win0_0.index t (1 : Fin 2) * 2048 + 1 * k.val = k.val; omega
  have hE1 : ∀ k : Fin 2048, ((cfg0.win 1).blk t).view.emb (ix2 k q) = (ix2 k q : Mat.Idx) := by
    intro k; funext a; apply Fin.ext
    match a with
    | ⟨0, _⟩ => show win0_1.index t (0 : Fin 2) * 2048 + 1 * k.val = k.val; omega
    | ⟨1, _⟩ => show win0_1.index t (1 : Fin 2) * 2048 + 1 * q.val = q.val; omega
  have hE2 : ((cfg0.win 2).blk t).view.emb (ix2 (0 : Fin 1) q) = (ix2 (0 : Fin 1) q : B2.Idx) := by
    funext a; apply Fin.ext
    match a with
    | ⟨0, _⟩ => show win0_2.index t (0 : Fin 2) * 1 + 1 * 0 = 0; omega
    | ⟨1, _⟩ => show win0_2.index t (1 : Fin 2) * 2048 + 1 * q.val = q.val; omega
  refine (pay_apply (iblk m c 0 t) (iblk m c 1 t) (iblk m c 2 t) p q).trans ?_
  show _ = rows (xs m c) (ws m c) (bs m c) (((cfg0.win 3).blk t).view.emb (ix2 p q))
  rw [hE3, bblk_apply, hE2]
  show _ = (∑ k : Fin 2048, xs m c (ix2 (⟨512 * t.val + p.val, hr⟩ : Fin 4096) k) * ws m c (ix2 k q)) + bs m c (ix2 (0 : Fin 1) q)
  refine congrArg (· + bs m c (ix2 (0 : Fin 1) q)) (Finset.sum_congr rfl fun k _ => ?_)
  rw [xblk_apply, wblk_apply, hE0 k, hE1 k]

/-- An index of the result array is in point `t`'s block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v24).slice (win0_3.rect t)).set ↔ _
  rw [View.set_slice_whole, Rect.mem_set_unit]
  exact Iff.rfl

/-- The eight blocks tile the result: row `r` lies in the block of point `r / 512`. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  have hN : cfg0.N = 8 := N_0
  obtain ⟨t, ht⟩ : ∃ t : Fin cfg0.N, t.val = (i 0).val / 512 := ⟨⟨(i 0).val / 512, Nat.lt_of_lt_of_eq (show (i 0).val / 512 < 8 by omega) hN.symm⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the region is `rows` of the operand arrays. -/
theorem final (c : Dev nD) : (dats m 0 c).arrAt 3 cfg0.N = rows (xs m c) (ws m c) (bs m c) :=
  (dats m 0 c).arrAt_eq_of_cover 3 _ (fun t _ => flushed_eq m c t) cover

end Cert.KernelIdeal.Rows

end
-- ==== Proof.KernelRun.lean ====
/-
  The kernel program's run with its result named. After the region the result array holds `rows` of the operand
  arrays; the one host line that follows reads it back at 4 × 1024 × 2048. The operand arrays are `x` flattened, the
  built matrix and the bias as a row (each up to a change of float format, the identity on the extended reals), so the
  program's result is `out` of `x`, the built matrix and the bias; the arguments end as launched.
-/
import proofs.«134470_j8400956031055_1_alg».proof.Proof.KernelValue

set_option maxRecDepth 16384

noncomputable section

namespace Cert.KernelIdeal.Result

open Cert.KernelIdeal Cert.KernelIdeal.Gen Cert.KernelIdeal.Rows Idealize.ShloMosaic Idealize.ShloMosaic.TcCoe Idealize.SL.Sem
open Idealize.ShloMosaic.ValueIdx Cert.ToeplitzLinear Idealize.ShloMosaic.StableHlo

variable (m : (ℓ : Loc nD τ sig) → Buf (Elt Ideal) ℓ) (ρ : Dev nD → PrngReg)

/-- The result buffer after the host line that follows the region: the region's result array read back at
    4 × 1024 × 2048. -/
theorem tail_eq (c : Dev nD) :
    Pipeline.afterTail₀ cfgs (dats m) 0 (V0 m) [hostOps1] c main_v25
      = shapeCast S4x1024x2048 (rows (V m c main_v22) (V m c main_v20) (V m c main_v23)) shapeCasts_S4096x2048_S4x1024x2048 := by
  have hw : Pipeline.withArrays (cfgs 0).spec c (V0 m c) (fun w => (dats m 0 c).arrAt w (cfgs 0).N) (Proc.devRef .tc main_v24)
      = rows (V m c main_v22) (V m c main_v20) (V m c main_v23) :=
    (Pipeline.withArrays_arr spec0 launch0.win.arr_inj c _ _ 3).trans (final m c)
  unfold Pipeline.afterTail₀
  show StableHlo.after hostOps1 _ (Proc.devRef .tc main_v25) = _
  after_results
  rw [hw]
  rfl

/-- The program's result is `out` of `x`, the built matrix and the bias. -/
theorem result_eq (c : Dev nD) :
    Pipeline.afterTail₀ cfgs (dats m) 0 (V0 m) [hostOps1] c main_v25
      = out (m ((c : Thread nD τ).loc main_arg0)) (Cert.KernelIdeal.Host.weights (fun b => m (c, b))) (m ((c : Thread nD τ).loc main_arg2)) := by
  rw [tail_eq, Cert.KernelIdeal.Host.V_v22, Cert.KernelIdeal.Host.V_v20, Cert.KernelIdeal.Host.V_v23]
  exact rows_reshaped _ _ _ _ _ _ _

/-- At the compiled mesh, from any memory with zero counters: every weakly fair execution of @main terminates with the
    result at `out` of `x`, the built matrix and the bias, and the arguments as launched. -/
theorem run : θ_run defs (onTc (τ := τ) (main (F := Ideal))) ⟨m, fun _ => 0, ρ⟩ fun r => ∀ c : Dev nD,
      r.2.mem ((c.tc : Thread nD τ).loc main_v25)
        = out (m ((c.tc : Thread nD τ).loc main_arg0)) (Cert.KernelIdeal.Host.weights (fun b => m (c, b))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  The certificate of a linear map along the last axis, `out[b, e, t] = ∑ s, x[b, e, s] · W[s, t] + bias[t]`, whose
  square matrix `W` both programs first build on the host from a weight row by the same operations.

  The kernel program flattens `x` to 4096 × 2048 rows, and over eight grid points multiplies each block of 512 rows with
  `W` into a zero accumulator, adds the bias row, and writes the block back; a host line reads the result back at
  4 × 1024 × 2048. The reference contracts `x` with `W` along the last axis and adds the bias along that axis. On the
  extended reals both are the same sums of the same products, entry by entry (a change of float format is the identity,
  the product into a zero accumulator is the plain sum), for whatever matrix sits in `W`'s buffer; and the two
  programs' 45 building operations, read back one by one, are one term of the weight row. No law that would need finite
  inputs is used, so the precondition is never opened.

  The three frames: the kernel program's two are its generated frame certificates, the reference's is its run with the
  result dropped. The idealization rewrote nothing, so `preserves` has nothing to show.
-/
import proofs.«134470_j8400956031055_1_alg».proof.Defs
import proofs.«134470_j8400956031055_1_alg».proof.Proof.Gen.Kernel
import proofs.«134470_j8400956031055_1_alg».proof.Proof.Gen.Kernel.Skeleton
import proofs.«134470_j8400956031055_1_alg».proof.Proof.Gen.Kernel.Launch
import proofs.«134470_j8400956031055_1_alg».proof.Proof.Gen.Kernel.Points
import proofs.«134470_j8400956031055_1_alg».proof.Proof.Gen.Kernel.Frame
import proofs.«134470_j8400956031055_1_alg».proof.Proof.Gen.KernelIdeal
import proofs.«134470_j8400956031055_1_alg».proof.Proof.Gen.KernelIdeal.Skeleton
import proofs.«134470_j8400956031055_1_alg».proof.Proof.Gen.KernelIdeal.Launch
import proofs.«134470_j8400956031055_1_alg».proof.Proof.Gen.KernelIdeal.Points
import proofs.«134470_j8400956031055_1_alg».proof.Proof.Gen.KernelIdeal.Frame
import proofs.«134470_j8400956031055_1_alg».proof.Proof.Gen.ReferenceIdeal
import proofs.«134470_j8400956031055_1_alg».proof.Proof.Gen.Pre_finite_inputs
import proofs.«134470_j8400956031055_1_alg».proof.Proof.Spec
import proofs.«134470_j8400956031055_1_alg».proof.Proof.RefRun
import proofs.«134470_j8400956031055_1_alg».proof.Proof.WeightsAgree
import proofs.«134470_j8400956031055_1_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.StableHlo

/-- The printed kernel program runs and keeps its arguments: its generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Host.run (F := Ideal) m ρ)

/-- The idealization rewrote no operation. -/
theorem preserves : Cert.preserves_Kernel_KernelIdeal := trivial

/-- From memories agreeing on the arguments both programs end with `out` of `x`, the built matrix and the bias: the
    kernel program by its blocks, the reference by its contraction, and the two built matrices are one. -/
theorem algebraic : Cert.algebraic_KernelIdeal_ReferenceIdeal := by
  intro m ρ m' ρ' _ hagree
  refine ⟨fun c => Cert.ToeplitzLinear.out (m ((c.tc : Thread Cert.KernelIdeal.nD Cert.KernelIdeal.τ).loc Cert.KernelIdeal.main_arg0))
      (Cert.KernelIdeal.Host.weights (fun b => m (c, b)))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Host.run (F := Ideal) m' ρ')
  rw [Cert.ToeplitzLinear.host_eq_out _ rfl rfl rfl rfl rfl rfl, (hagree c).1, (hagree c).2.2,
    Cert.WeightsAgree.weights_eq (fun b => m (c, b)) (launchContents m' c) (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
